-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 84
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S128x128, .bf16⟩
  | .hbm, ⟨40, _⟩ => ⟨S128x64, .bf16⟩
  | .hbm, ⟨41, _⟩ => ⟨S100000x128, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x128, .f32⟩
  | .hbm, ⟨51, _⟩ => ⟨S1700000x1, .f32⟩
  | .hbm, ⟨52, _⟩ => ⟨S1700000x128, .f32⟩
  | .hbm, ⟨53, _⟩ => ⟨S1700000x128, .f32⟩
  | .hbm, ⟨54, _⟩ => ⟨S_, .f32⟩
  | .hbm, ⟨55, _⟩ => ⟨S100000x128, .f32⟩
  | .hbm, ⟨56, _⟩ => ⟨S1700000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S100000x64, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x64, .f32⟩
  | .hbm, ⟨74, _⟩ => ⟨S1700000x1, .f32⟩
  | .hbm, ⟨75, _⟩ => ⟨S1700000x64, .f32⟩
  | .hbm, ⟨76, _⟩ => ⟨S1700000x64, .f32⟩
  | .hbm, ⟨77, _⟩ => ⟨S_, .f32⟩
  | .hbm, ⟨78, _⟩ => ⟨S100000x64, .f32⟩
  | .hbm, ⟨79, _⟩ => ⟨S1700000x1, .i32⟩
  | .hbm, ⟨80, _⟩ => ⟨S100000x64, .f32⟩
  | .hbm, ⟨81, _⟩ => ⟨S1x64, .f32⟩
  | .hbm, ⟨82, _⟩ => ⟨S100000x64, .f32⟩
  | .hbm, ⟨83, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .bf16⟩
  | .local _ .vmem, ⟨8, _⟩ => ⟨S5000x64, .f32⟩
  | .local _ .vmem, ⟨9, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_call0_cst : Ref sig .tc := ⟨.hbm, 61, rfl⟩
abbrev main_call0_v0 : Ref sig .tc := ⟨.hbm, 62, rfl⟩
abbrev main_v46 : Ref sig .tc := ⟨.hbm, 63, rfl⟩
abbrev main_v47 : Ref sig .tc := ⟨.hbm, 64, rfl⟩
abbrev main_c_7 : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_9 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .bf16 = 32 ∨ (Rect.block (s := S128x64) S128x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 108
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x128, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1700000, .i32⟩
  | .hbm, ⟨23, _⟩ => ⟨S1700000, .i1⟩
  | .hbm, ⟨24, _⟩ => ⟨S_, .i32⟩
  | .hbm, ⟨25, _⟩ => ⟨S1700000, .i32⟩
  | .hbm, ⟨26, _⟩ => ⟨S1700000, .i32⟩
  | .hbm, ⟨27, _⟩ => ⟨S1700000, .i32⟩
  | .hbm, ⟨28, _⟩ => ⟨S1700000x1, .i32⟩
  | .hbm, ⟨29, _⟩ => ⟨S1700000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x128, .f32⟩
  | .hbm, ⟨49, _⟩ => ⟨S1700000x1, .f32⟩
  | .hbm, ⟨50, _⟩ => ⟨S1700000x128, .f32⟩
  | .hbm, ⟨51, _⟩ => ⟨S1700000x128, .f32⟩
  | .hbm, ⟨52, _⟩ => ⟨S_, .f32⟩
  | .hbm, ⟨53, _⟩ => ⟨S100000x128, .f32⟩
  | .hbm, ⟨54, _⟩ => ⟨S1700000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x64, .f32⟩
  | .hbm, ⟨63, _⟩ => ⟨S_, .f32⟩
  | .hbm, ⟨64, _⟩ => ⟨S1700000, .f32⟩
  | .hbm, ⟨65, _⟩ => ⟨S_, .f32⟩
  | .hbm, ⟨66, _⟩ => ⟨S100000, .f32⟩
  | .hbm, ⟨67, _⟩ => ⟨S1700000x1, .i32⟩
  | .hbm, ⟨68, _⟩ => ⟨S100000, .f32⟩
  | .hbm, ⟨69, _⟩ => ⟨S100000, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1700000, .f32⟩
  | .hbm, ⟨88, _⟩ => ⟨S1700000, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000x64, .f32⟩
  | .hbm, ⟨98, _⟩ => ⟨S1700000x1, .f32⟩
  | .hbm, ⟨99, _⟩ => ⟨S1700000x64, .f32⟩
  | .hbm, ⟨100, _⟩ => ⟨S1700000x64, .f32⟩
  | .hbm, ⟨101, _⟩ => ⟨S_, .f32⟩
  | .hbm, ⟨102, _⟩ => ⟨S100000x64, .f32⟩
  | .hbm, ⟨103, _⟩ => ⟨S1700000x1, .i32⟩
  | .hbm, ⟨104, _⟩ => ⟨S100000x64, .f32⟩
  | .hbm, ⟨105, _⟩ => ⟨S1x64, .f32⟩
  | .hbm, ⟨106, _⟩ => ⟨S100000x64, .f32⟩
  | .hbm, ⟨107, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_13 : Ref sig .tc := ⟨.hbm, 89, rfl⟩
abbrev main_v66 : Ref sig .tc := ⟨.hbm, 90, rfl⟩
abbrev main_v67 : Ref sig .tc := ⟨.hbm, 91, rfl⟩
abbrev main_c_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_15 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Dense.lean ====
/-
  The two dense layers, entry by entry over the extended reals.

  A graph-convolution layer multiplies the node features by a weight matrix before it aggregates them along the
  edges.  The kernel forms that product tile by tile: 5000 rows of the features against the whole weight matrix,
  both operands rounded to bf16 first, accumulated from a zero tile.  The reference forms it in one contraction
  of the unrounded operands.  Over the extended reals a change of float format is the identity and an
  accumulation from zero is just the sum, so an entry of either product is the same finite sum
        Σ_k  x[r, k] · w[k, c]        (k over the 128 input channels).
  Here that reading is proved for the kernel's two tile products (the first layer's 128 output channels, the
  second layer's 64) and for the reference's two contractions.  No law of arithmetic beyond the definition of a
  contraction is used, so nothing here needs the inputs finite.
-/
import proofs.«156034_j18408229830831_1_alg».proof.Proof.Gen.KernelIdeal.Skeleton
import proofs.«156034_j18408229830831_1_alg».proof.Proof.Gen.ReferenceIdeal
import Idealize.ShloMosaic.Lib.ValueIdx
import Idealize.ShloMosaic.Lib.Pipeline.Value
import Idealize.ShloMosaic.PureOps.Ideal.Laws

noncomputable section

namespace Cert.Dense

open Idealize.ShloMosaic Idealize.ShloMosaic.ValueIdx
open scoped BigOperators

/-! ## Which operand entries a contraction reads: row `r` of the left operand, column `c` of the right -/

theorem tileA_l0 (i : Cert.KernelIdeal.S5000x128.Idx) (q : Cert.KernelIdeal.dot_S5000x128_S128x128_S5000x128_1_0_0_1_n_n.contr.Idx) :
    (Cert.KernelIdeal.dot_S5000x128_S128x128_S5000x128_1_0_0_1_n_n.lhsIdx i q 0).val = (i 0).val := by
  unfold DotDims.lhsIdx
  rw [dif_neg (show ¬(0 : Fin Cert.KernelIdeal.S5000x128.rank) ∈ Cert.KernelIdeal.dot_S5000x128_S128x128_S5000x128_1_0_0_1_n_n.lhsBatch by decide), dif_pos (show (0 : Fin Cert.KernelIdeal.S5000x128.rank) ∈ Cert.KernelIdeal.dot_S5000x128_S128x128_S5000x128_1_0_0_1_n_n.lhsNonContracting by decide)]
  rfl
theorem tileA_l1 (i : Cert.KernelIdeal.S5000x128.Idx) (q : Cert.KernelIdeal.dot_S5000x128_S128x128_S5000x128_1_0_0_1_n_n.contr.Idx) :
    (Cert.KernelIdeal.dot_S5000x128_S128x128_S5000x128_1_0_0_1_n_n.lhsIdx i q 1).val = (q ⟨0, by decide⟩).val :=
  Cert.KernelIdeal.dot_S5000x128_S128x128_S5000x128_1_0_0_1_n_n.lhsIdx_val_of_single rfl i q
theorem tileA_r0 (i : Cert.KernelIdeal.S5000x128.Idx) (q : Cert.KernelIdeal.dot_S5000x128_S128x128_S5000x128_1_0_0_1_n_n.contr.Idx) :
    (Cert.KernelIdeal.dot_S5000x128_S128x128_S5000x128_1_0_0_1_n_n.rhsIdx i q 0).val = (q ⟨0, by decide⟩).val :=
  Cert.KernelIdeal.dot_S5000x128_S128x128_S5000x128_1_0_0_1_n_n.rhsIdx_val_of_single rfl i q
theorem tileA_r1 (i : Cert.KernelIdeal.S5000x128.Idx) (q : Cert.KernelIdeal.dot_S5000x128_S128x128_S5000x128_1_0_0_1_n_n.contr.Idx) :
    (Cert.KernelIdeal.dot_S5000x128_S128x128_S5000x128_1_0_0_1_n_n.rhsIdx i q 1).val = (i 1).val := by
  unfold DotDims.rhsIdx
  rw [dif_neg (show ¬(1 : Fin Cert.KernelIdeal.S128x128.rank) ∈ Cert.KernelIdeal.dot_S5000x128_S128x128_S5000x128_1_0_0_1_n_n.rhsBatch by decide), dif_pos (show (1 : Fin Cert.KernelIdeal.S128x128.rank) ∈ Cert.KernelIdeal.dot_S5000x128_S128x128_S5000x128_1_0_0_1_n_n.rhsNonContracting by decide)]
  rfl

theorem tileB_l0 (i : Cert.KernelIdeal.S5000x64.Idx) (q : Cert.KernelIdeal.dot_S5000x128_S128x64_S5000x64_1_0_0_1_n_n.contr.Idx) :
    (Cert.KernelIdeal.dot_S5000x128_S128x64_S5000x64_1_0_0_1_n_n.lhsIdx i q 0).val = (i 0).val := by
  unfold DotDims.lhsIdx
  rw [dif_neg (show ¬(0 : Fin Cert.KernelIdeal.S5000x128.rank) ∈ Cert.KernelIdeal.dot_S5000x128_S128x64_S5000x64_1_0_0_1_n_n.lhsBatch by decide), dif_pos (show (0 : Fin Cert.KernelIdeal.S5000x128.rank) ∈ Cert.KernelIdeal.dot_S5000x128_S128x64_S5000x64_1_0_0_1_n_n.lhsNonContracting by decide)]
  rfl
theorem tileB_l1 (i : Cert.KernelIdeal.S5000x64.Idx) (q : Cert.KernelIdeal.dot_S5000x128_S128x64_S5000x64_1_0_0_1_n_n.contr.Idx) :
    (Cert.KernelIdeal.dot_S5000x128_S128x64_S5000x64_1_0_0_1_n_n.lhsIdx i q 1).val = (q ⟨0, by decide⟩).val :=
  Cert.KernelIdeal.dot_S5000x128_S128x64_S5000x64_1_0_0_1_n_n.lhsIdx_val_of_single rfl i q
theorem tileB_r0 (i : Cert.KernelIdeal.S5000x64.Idx) (q : Cert.KernelIdeal.dot_S5000x128_S128x64_S5000x64_1_0_0_1_n_n.contr.Idx) :
    (Cert.KernelIdeal.dot_S5000x128_S128x64_S5000x64_1_0_0_1_n_n.rhsIdx i q 0).val = (q ⟨0, by decide⟩).val :=
  Cert.KernelIdeal.dot_S5000x128_S128x64_S5000x64_1_0_0_1_n_n.rhsIdx_val_of_single rfl i q
theorem tileB_r1 (i : Cert.KernelIdeal.S5000x64.Idx) (q : Cert.KernelIdeal.dot_S5000x128_S128x64_S5000x64_1_0_0_1_n_n.contr.Idx) :
    (Cert.KernelIdeal.dot_S5000x128_S128x64_S5000x64_1_0_0_1_n_n.rhsIdx i q 1).val = (i 1).val := by
  unfold DotDims.rhsIdx
  rw [dif_neg (show ¬(1 : Fin Cert.KernelIdeal.S128x64.rank) ∈ Cert.KernelIdeal.dot_S5000x128_S128x64_S5000x64_1_0_0_1_n_n.rhsBatch by decide), dif_pos (show (1 : Fin Cert.KernelIdeal.S128x64.rank) ∈ Cert.KernelIdeal.dot_S5000x128_S128x64_S5000x64_1_0_0_1_n_n.rhsNonContracting by decide)]
  rfl

theorem wholeA_l0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem wholeA_l1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem wholeA_r0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem wholeA_r1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

theorem wholeB_l0 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x64_S100000x64_1_0_0_1_n_n.lhsBatch by decide), dif_pos (show (0 : Fin Cert.ReferenceIdeal.S100000x128.rank) ∈ Cert.ReferenceIdeal.dot_S100000x128_S128x64_S100000x64_1_0_0_1_n_n.lhsNonContracting by decide)]
  rfl
theorem wholeB_l1 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 1).val = (q ⟨0, by decide⟩).val :=
  Cert.ReferenceIdeal.dot_S100000x128_S128x64_S100000x64_1_0_0_1_n_n.lhsIdx_val_of_single rfl i q
theorem wholeB_r0 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 0).val = (q ⟨0, by decide⟩).val :=
  Cert.ReferenceIdeal.dot_S100000x128_S128x64_S100000x64_1_0_0_1_n_n.rhsIdx_val_of_single rfl i q
theorem wholeB_r1 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 1).val = (i 1).val := by
  unfold DotDims.rhsIdx
  rw [dif_neg (show ¬(1 : Fin Cert.ReferenceIdeal.S128x64.rank) ∈ Cert.ReferenceIdeal.dot_S100000x128_S128x64_S100000x64_1_0_0_1_n_n.rhsBatch by decide), dif_pos (show (1 : Fin Cert.ReferenceIdeal.S128x64.rank) ∈ Cert.ReferenceIdeal.dot_S100000x128_S128x64_S100000x64_1_0_0_1_n_n.rhsNonContracting by decide)]
  rfl

/-! ## The kernel's tile products -/

/-- First layer: a tile's entry (r, c) is the sum over the input channels of the feature tile's row r against the
    weight matrix's column c; the bf16 roundings of both operands are the identity here. -/
theorem tile128 (x : Vec Ideal Cert.KernelIdeal.S5000x128 .f32) (w : Vec Ideal Cert.KernelIdeal.S128x128 .bf16) (i : Cert.KernelIdeal.S5000x128.Idx) :
    Cert.KernelIdeal.Gen.k0_pay1 (F := Ideal) x w i = ∑ k : Fin 128, x (ix2 (i 0) k) * w (ix2 k (i 1)) := by
  unfold Cert.KernelIdeal.Gen.k0_pay1
  simp only [matmul]
  rw [shapeCast_self, Ideal.matmul_constant_zero_apply,
    ← Equiv.sum_comp (contrEquiv1 Cert.KernelIdeal.dot_S5000x128_S128x128_S5000x128_1_0_0_1_n_n 128 rfl rfl).symm]
  refine Finset.sum_congr rfl fun k _ => ?_
  have hk := contrEquiv1_symm_val Cert.KernelIdeal.dot_S5000x128_S128x128_S5000x128_1_0_0_1_n_n 128 rfl rfl k
  have el : Cert.KernelIdeal.dot_S5000x128_S128x128_S5000x128_1_0_0_1_n_n.lhsIdx i ((contrEquiv1 Cert.KernelIdeal.dot_S5000x128_S128x128_S5000x128_1_0_0_1_n_n 128 rfl rfl).symm k) = ix2 (i 0) k := funext fun a => Fin.ext (by
    match a with
    | ⟨0, _⟩ => exact tileA_l0 _ _
    | ⟨1, _⟩ => exact (tileA_l1 _ _).trans hk)
  have er : Cert.KernelIdeal.dot_S5000x128_S128x128_S5000x128_1_0_0_1_n_n.rhsIdx i ((contrEquiv1 Cert.KernelIdeal.dot_S5000x128_S128x128_S5000x128_1_0_0_1_n_n 128 rfl rfl).symm k) = ix2 k (i 1) := funext fun a => Fin.ext (by
    match a with
    | ⟨0, _⟩ => exact (tileA_r0 _ _).trans hk
    | ⟨1, _⟩ => exact tileA_r1 _ _)
  rw [el, er]
  rfl

/-- Second layer: the same sum, into 64 output channels. -/
theorem tile64 (x : Vec Ideal Cert.KernelIdeal.S5000x128 .f32) (w : Vec Ideal Cert.KernelIdeal.S128x64 .bf16) (i : Cert.KernelIdeal.S5000x64.Idx) :
    Cert.KernelIdeal.Gen.k1_pay1 (F := Ideal) x w i = ∑ k : Fin 128, x (ix2 (i 0) k) * w (ix2 k (i 1)) := by
  unfold Cert.KernelIdeal.Gen.k1_pay1
  simp only [matmul]
  rw [shapeCast_self, shapeCast_self, Ideal.matmul_constant_zero_apply,
    ← Equiv.sum_comp (contrEquiv1 Cert.KernelIdeal.dot_S5000x128_S128x64_S5000x64_1_0_0_1_n_n 128 rfl rfl).symm]
  refine Finset.sum_congr rfl fun k _ => ?_
  have hk := contrEquiv1_symm_val Cert.KernelIdeal.dot_S5000x128_S128x64_S5000x64_1_0_0_1_n_n 128 rfl rfl k
  have el : Cert.KernelIdeal.dot_S5000x128_S128x64_S5000x64_1_0_0_1_n_n.lhsIdx i ((contrEquiv1 Cert.KernelIdeal.dot_S5000x128_S128x64_S5000x64_1_0_0_1_n_n 128 rfl rfl).symm k) = ix2 (i 0) k := funext fun a => Fin.ext (by
    match a with
    | ⟨0, _⟩ => exact tileB_l0 _ _
    | ⟨1, _⟩ => exact (tileB_l1 _ _).trans hk)
  have er : Cert.KernelIdeal.dot_S5000x128_S128x64_S5000x64_1_0_0_1_n_n.rhsIdx i ((contrEquiv1 Cert.KernelIdeal.dot_S5000x128_S128x64_S5000x64_1_0_0_1_n_n 128 rfl rfl).symm k) = ix2 k (i 1) := funext fun a => Fin.ext (by
    match a with
    | ⟨0, _⟩ => exact (tileB_r0 _ _).trans hk
    | ⟨1, _⟩ => exact tileB_r1 _ _)
  rw [el, er]
  rfl

/-! ## The reference's whole-array contractions -/

/-- First layer: entry (r, c) of the features times the weights is the same sum over the input channels. -/
theorem whole128 (x : Vec Ideal Cert.ReferenceIdeal.S100000x128 .f32) (w : Vec Ideal Cert.ReferenceIdeal.S128x128 .f32) (i : Cert.ReferenceIdeal.S100000x128.Idx) :
    Host.dotGeneral (F := Ideal) (φ₁ := .f32) (φ₂ := .f32) Cert.ReferenceIdeal.dot_S100000x128_S128x128_S100000x128_1_0_0_1_n_n none x w i = ∑ k : Fin 128, x (ix2 (i 0) k) * w (ix2 k (i 1)) := by
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((contrEquiv1 Cert.ReferenceIdeal.dot_S100000x128_S128x128_S100000x128_1_0_0_1_n_n 128 rfl rfl).symm k) = ix2 (i 0) k := funext fun a => Fin.ext (by
    match a with
    | ⟨0, _⟩ => exact wholeA_l0 _ _
    | ⟨1, _⟩ => exact (wholeA_l1 _ _).trans hk)
  have er : Cert.ReferenceIdeal.dot_S100000x128_S128x128_S100000x128_1_0_0_1_n_n.rhsIdx i ((contrEquiv1 Cert.ReferenceIdeal.dot_S100000x128_S128x128_S100000x128_1_0_0_1_n_n 128 rfl rfl).symm k) = ix2 k (i 1) := funext fun a => Fin.ext (by
    match a with
    | ⟨0, _⟩ => exact (wholeA_r0 _ _).trans hk
    | ⟨1, _⟩ => exact wholeA_r1 _ _)
  rw [el, er]
  rfl

/-- Second layer: the same, into 64 output channels. -/
theorem whole64 (x : Vec Ideal Cert.ReferenceIdeal.S100000x128 .f32) (w : Vec Ideal Cert.ReferenceIdeal.S128x64 .f32) (i : Cert.ReferenceIdeal.S100000x64.Idx) :
    Host.dotGeneral (F := Ideal) (φ₁ := .f32) (φ₂ := .f32) Cert.ReferenceIdeal.dot_S100000x128_S128x64_S100000x64_1_0_0_1_n_n none x w i = ∑ k : Fin 128, x (ix2 (i 0) k) * w (ix2 k (i 1)) := by
  simp only [Host.dotGeneral]
  rw [Ideal.dotGeneral_apply, ← Equiv.sum_comp (contrEquiv1 Cert.ReferenceIdeal.dot_S100000x128_S128x64_S100000x64_1_0_0_1_n_n 128 rfl rfl).symm]
  refine Finset.sum_congr rfl fun k _ => ?_
  have hk := contrEquiv1_symm_val Cert.ReferenceIdeal.dot_S100000x128_S128x64_S100000x64_1_0_0_1_n_n 128 rfl rfl k
  have el : Cert.ReferenceIdeal.dot_S100000x128_S128x64_S100000x64_1_0_0_1_n_n.lhsIdx i ((contrEquiv1 Cert.ReferenceIdeal.dot_S100000x128_S128x64_S100000x64_1_0_0_1_n_n 128 rfl rfl).symm k) = ix2 (i 0) k := funext fun a => Fin.ext (by
    match a with
    | ⟨0, _⟩ => exact wholeB_l0 _ _
    | ⟨1, _⟩ => exact (wholeB_l1 _ _).trans hk)
  have er : Cert.ReferenceIdeal.dot_S100000x128_S128x64_S100000x64_1_0_0_1_n_n.rhsIdx i ((contrEquiv1 Cert.ReferenceIdeal.dot_S100000x128_S128x64_S100000x64_1_0_0_1_n_n 128 rfl rfl).symm k) = ix2 k (i 1) := funext fun a => Fin.ext (by
    match a with
    | ⟨0, _⟩ => exact (wholeB_r0 _ _).trans hk
    | ⟨1, _⟩ => exact wholeB_r1 _ _)
  rw [el, er]
  rfl

end Cert.Dense

end
-- ==== Proof.Graph.lean ====
/-
  A two-layer graph convolution as one function of its inputs.

  The graph has 100000 nodes and 1600000 directed edges (source row, destination row of the edge list); every node
  also gets a self-loop, so there are 1700000 edges in all.  With deg(v) the number of edges that END at v
  (self-loop included), an edge from s to d carries the weight
        norm(s → d) = deg(s)^(-1/2) · deg(d)^(-1/2).
  One layer sends features h (a row per node) to
        out[v, c] = Σ_{edges s → v} norm(s → v) · h[s, c]  +  bias[c]:
  gather the source rows, scale each by its edge's weight, add them into the destination rows, add the bias.
  A negative endpoint is read as counted from the end (100000 is added to it), as array indexing does; what a
  gather or a scatter-add does with an endpoint still out of range is whatever those operations say, and it is
  the same on both sides of this certificate, since both apply the same operations to the same endpoints.
  The network is
        layer₂( relu( layer₁( x · W₁ ) ) · W₂ ),
  the products x · W taken over the 128 input channels.  Everything but the two products is stated for any
  float instance; the products are stated over the extended reals, where they are plain finite sums.
-/
import proofs.«156034_j18408229830831_1_alg».proof.Proof.Gen.KernelIdeal
import Idealize.ShloMosaic.Lib.ValueIdx
import Idealize.ShloMosaic.PureOps.Ideal

noncomputable section

open Idealize.ShloMosaic Idealize.ShloMosaic.ValueIdx
open scoped BigOperators

namespace Cert.KernelIdeal.Graph

open Cert.KernelIdeal Cert.KernelIdeal.Gen

variable {F : FTy → Type} [FloatOps F]

/-- The edge list: row 0 the sources, row 1 the destinations. -/
abbrev Edges (F : FTy → Type) := (⟨S2x1600000, .i32⟩ : BufTy).Contents (Elt F)
/-- One endpoint per edge, self-loops included. -/
abbrev Ends (F : FTy → Type) := (⟨S1700000, .i32⟩ : BufTy).Contents (Elt F)
/-- One weight per edge. -/
abbrev PerEdge (F : FTy → Type) := (⟨S1700000, .f32⟩ : BufTy).Contents (Elt F)
/-- A row of 128 features per node. -/
abbrev Feat128 (F : FTy → Type) := (⟨S100000x128, .f32⟩ : BufTy).Contents (Elt F)
/-- A row of 64 features per node. -/
abbrev Feat64 (F : FTy → Type) := (⟨S100000x64, .f32⟩ : BufTy).Contents (Elt F)

/-- Every edge's source: row 0 of the edge list, then the nodes 0 … 99999 for the self-loops. -/
def src (ei : Edges F) : Ends F :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- Every edge's destination: row 1 of the edge list, then the nodes 0 … 99999 for the self-loops. -/
def dst (ei : Edges F) : Ends F :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- A negative endpoint counts from the end: 100000 is added to it. -/
def wrap (v : Ends F) : Ends F :=
  select (cmpi .slt v (broadcastInDim S1700000 ![] bcast_S_S1700000 (constantI S_ 32 0#32))) (addi v (broadcastInDim S1700000 ![] bcast_S_S1700000 (constantI S_ 32 100000#32))) v

/-- deg(v)^(-1/2): a one is added into node v for every edge that ends there, then the reciprocal square root. -/
def invSqrtDeg (d : Ends F) : (⟨S100000, .f32⟩ : BufTy).Contents (Elt F) :=
  Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32)))

/-- The weight of every edge: deg(source)^(-1/2) · deg(destination)^(-1/2). -/
def norm (s d : Ends F) : PerEdge F :=
  mulf (Host.gather gather_S100000_S1700000x1_S1700000_n_0_n_n_0_1_1 (invSqrtDeg d) (broadcastInDim S1700000x1 ![0] bcast_S1700000_S1700000x1_0 (wrap s))) (Host.gather gather_S100000_S1700000x1_S1700000_n_0_n_n_0_1_1 (invSqrtDeg d) (broadcastInDim S1700000x1 ![0] bcast_S1700000_S1700000x1_0 (wrap d)))

/-- One layer's aggregation over 128 channels: gather the source rows of `h`, scale each by its edge's weight, add
    them into the destination rows, add the bias. -/
def aggregate128 (h : Feat128 F) (s d : Ends F) (n : PerEdge F) (b : (⟨S128, .f32⟩ : BufTy).Contents (Elt F)) : Feat128 F :=
  addf (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 d) (mulf (Host.gather gather_S100000x128_S1700000x1_S1700000x128_1_0_n_n_0_1_1128 h (broadcastInDim S1700000x1 ![0] bcast_S1700000_S1700000x1_0 (wrap s))) (broadcastInDim S1700000x128 ![0, 1] bcast_S1700000x1_S1700000x128_0_1 (broadcastInDim S1700000x1 ![0] bcast_S1700000_S1700000x1_0 n)))) (broadcastInDim S100000x128 ![0, 1] bcast_S1x128_S100000x128_0_1 (broadcastInDim S1x128 ![1] bcast_S128_S1x128_1 b))

/-- The same over 64 channels. -/
def aggregate64 (h : Feat64 F) (s d : Ends F) (n : PerEdge F) (b : (⟨S64, .f32⟩ : BufTy).Contents (Elt F)) : Feat64 F :=
  addf (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 d) (mulf (Host.gather gather_S100000x64_S1700000x1_S1700000x64_1_0_n_n_0_1_164 h (broadcastInDim S1700000x1 ![0] bcast_S1700000_S1700000x1_0 (wrap s))) (broadcastInDim S1700000x64 ![0, 1] bcast_S1700000x1_S1700000x64_0_1 (broadcastInDim S1700000x1 ![0] bcast_S1700000_S1700000x1_0 n)))) (broadcastInDim S100000x64 ![0, 1] bcast_S1x64_S100000x64_0_1 (broadcastInDim S1x64 ![1] bcast_S64_S1x64_1 b))

/-- max(h, 0), entry by entry. -/
def relu (h : Feat128 F) : Feat128 F :=
  maximumf h (broadcastInDim S100000x128 ![] bcast_S_S100000x128 (constant S_ .f32 0x00000000#32))

/-- The first layer's weights rounded to bf16 (the identity on the extended reals). -/
def round128 (w : (⟨S128x128, .f32⟩ : BufTy).Contents (Elt F)) : (⟨S128x128, .bf16⟩ : BufTy).Contents (Elt F) :=
  ((truncf .bf16 · bitsLt_bf16_f32) : (⟨S128x128, .f32⟩ : BufTy).Contents (Elt F) → (⟨S128x128, .bf16⟩ : BufTy).Contents (Elt F)) w

/-- The second layer's weights rounded to bf16. -/
def round64 (w : (⟨S128x64, .f32⟩ : BufTy).Contents (Elt F)) : (⟨S128x64, .bf16⟩ : BufTy).Contents (Elt F) :=
  ((truncf .bf16 · bitsLt_bf16_f32) : (⟨S128x64, .f32⟩ : BufTy).Contents (Elt F) → (⟨S128x64, .bf16⟩ : BufTy).Contents (Elt F)) w

/-- Features times weights into 128 channels: entry (r, c) sums row r of `x` against column c of `w`. -/
def prod128 (x : Feat128 Ideal) (w : (⟨S128x128, .bf16⟩ : BufTy).Contents (Elt Ideal)) : Feat128 Ideal :=
  fun i => ∑ k : Fin 128, x (ix2 (i 0) k) * w (ix2 k (i 1))

/-- Features times weights into 64 channels. -/
def prod64 (x : Feat128 Ideal) (w : (⟨S128x64, .bf16⟩ : BufTy).Contents (Elt Ideal)) : Feat64 Ideal :=
  fun i => ∑ k : Fin 128, x (ix2 (i 0) k) * w (ix2 k (i 1))

/-- The network: layer₂(relu(layer₁(x · W₁)) · W₂) over the graph `ei`; the weights' rounding to bf16 is the identity
    on the extended reals. -/
def gcn (x : Feat128 Ideal) (ei : Edges Ideal) (w1 : (⟨S128x128, .f32⟩ : BufTy).Contents (Elt Ideal)) (b1 : (⟨S128, .f32⟩ : BufTy).Contents (Elt Ideal))
    (w2 : (⟨S128x64, .f32⟩ : BufTy).Contents (Elt Ideal)) (b2 : (⟨S64, .f32⟩ : BufTy).Contents (Elt Ideal)) : Feat64 Ideal :=
  aggregate64 (prod64 (relu (aggregate128 (prod128 x (round128 w1)) (src ei) (dst ei) (norm (src ei) (dst ei)) b1))
    (round64 w2)) (src ei) (dst ei) (norm (src ei) (dst ei)) b2

end Cert.KernelIdeal.Graph

end
-- ==== Proof.Tiles.lean ====
/-
  Each dense layer's output array, whole, after its region.

  A region walks the feature array in 20 tiles of 5000 rows.  At grid point t it reads feature rows
  5000 t … 5000 t + 4999 and the whole weight matrix, forms the tile product (every entry the sum over the 128
  input channels of a feature row against a weight column), and writes the tile back over output rows
  5000 t … 5000 t + 4999.  The tiles partition the rows, so after the last point the output array is the one
  whole-array product
        out[r, c] = Σ_k  x[r, k] · w[k, c]
  of the feature array and the weight matrix as the region found them.  This is proved for both regions, at any
  contents `V` of the buffers at the region's entry.
-/
import proofs.«156034_j18408229830831_1_alg».proof.Proof.Gen.KernelIdeal.Frame
import proofs.«156034_j18408229830831_1_alg».proof.Proof.Dense
import proofs.«156034_j18408229830831_1_alg».proof.Proof.Graph
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Tiles

open Cert.KernelIdeal Cert.KernelIdeal.Gen Cert.KernelIdeal.Graph

theorem hz : (![0, 0] : Fin 2 → Nat) = fun _ => 0 := funext fun a => by fin_cases a <;> rfl

variable (V : (c : Dev nD) → (b : Ref sig .tc) → Buf (Elt Ideal) ((c : Thread nD τ).loc b))

/-! ## Region 0: S5000x128 from main_arg0 and main_v27 -/

section Region0

/-- The printed index maps over the grid: the feature window and the output window sit at row-tile `t`, column-tile
    0; the weight window is the whole matrix at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `r` of the feature tile at point `t` is row `5000 t + r` of the feature array. -/
theorem read_x0 (c : Dev nD) (t : Fin cfg0.N) (j : S5000x128.Idx) (k : Fin 128) :
    (iblk0 V c 0 t : Vec Ideal S5000x128 .f32) (ix2 (j 0) k)
      = (V c main_arg0 : Vec Ideal S100000x128 .f32) (ix2 ((((cfg0.win 2).blk t).view.emb j) 0) k) := by
  show (V c main_arg0 : Vec Ideal S100000x128 .f32) (((cfg0.win 0).blk t).view.emb (ix2 (j 0) k)) = _
  refine congrArg (V c main_arg0 : Vec Ideal S100000x128 .f32) ?_
  obtain ⟨e0, e1, e2, e3, e4, e5⟩ := idx_facts0 t
  funext a; apply Fin.ext
  match a with
  | ⟨0, _⟩ => show win0_0.index t (0 : Fin 2) * 5000 + 1 * (j 0).val = win0_2.index t (0 : Fin 2) * 5000 + 1 * (j 0).val; omega
  | ⟨1, _⟩ => show win0_0.index t (1 : Fin 2) * 128 + 1 * k.val = k.val; omega

/-- The weight tile at every point is the weight matrix; column `c` of the output tile is column `c` of the array. -/
theorem read_w0 (c : Dev nD) (t : Fin cfg0.N) (j : S5000x128.Idx) (k : Fin 128) :
    (iblk0 V c 1 t : Vec Ideal S128x128 .bf16) (ix2 k (j 1))
      = (V c main_v27 : Vec Ideal S128x128 .bf16) (ix2 k ((((cfg0.win 2).blk t).view.emb j) 1)) := by
  show (V c main_v27 : Vec Ideal S128x128 .bf16) (((cfg0.win 1).blk t).view.emb (ix2 k (j 1))) = _
  refine congrArg (V c main_v27 : Vec Ideal S128x128 .bf16) ?_
  obtain ⟨e0, e1, e2, e3, e4, e5⟩ := idx_facts0 t
  funext a; apply Fin.ext
  match a with
  | ⟨0, _⟩ => show win0_1.index t (0 : Fin 2) * 128 + 1 * k.val = k.val; omega
  | ⟨1, _⟩ => show win0_1.index t (1 : Fin 2) * 128 + 1 * (j 1).val = win0_2.index t (1 : Fin 2) * 128 + 1 * (j 1).val; omega

/-- WHAT POINT `t` WRITES BACK is tile `t` of the whole product of the arrays as the region finds them. -/
theorem flushed_eq0 (c : Dev nD) (t : Fin cfg0.N) :
    (dat0 V c).flushed 2 t = ((cfg0.win 2).blk t).view.read (Elt Ideal) (prod128 (V c main_arg0) (V c main_v27)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  show k0_pay1 (iblk0 V c 0 t) (iblk0 V c 1 t) j = prod128 (V c main_arg0) (V c main_v27) (((cfg0.win 2).blk t).view.emb j)
  refine (Cert.Dense.tile128 (iblk0 V c 0 t) (iblk0 V c 1 t) j).trans ?_
  unfold prod128
  refine Finset.sum_congr rfl fun k _ => ?_
  rw [read_x0 V c t j k, read_w0 V c t j k]

/-- An index of the output array is in point `t`'s tile iff each coordinate is in the tile's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- Every row of the output lies in the tile of the point `row / 5000`. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_2 _, ?_⟩
  rw [mem_blk0]
  obtain ⟨e0, e1, e2, e3, e4, e5⟩ := idx_facts0 ⟨(i 0).val / 5000, by rw [hN]; omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ _ ∧ _ < (i 0).val / 5000 * 5000 + 5000; omega
  | ⟨1, _⟩ => show win0_2.index _ (1 : Fin 2) * 128 ≤ (i 1).val ∧ (i 1).val < win0_2.index _ (1 : Fin 2) * 128 + 128; rw [e5]; omega

/-- THE OUTPUT ARRAY after the region: the whole product of the feature array and the weight matrix as the region
    finds them. -/
theorem final0 (c : Dev nD) : (dat0 V c).arrAt 2 cfg0.N = prod128 (V c main_arg0) (V c main_v27) :=
  (dat0 V c).arrAt_eq_of_cover 2 (prod128 (V c main_arg0) (V c main_v27)) (fun t _ => flushed_eq0 V c t) (cover0)

end Region0

/-! ## Region 1: S5000x64 from main_v46 and main_v28 -/

section Region1

/-- The printed index maps over the grid: the feature window and the output window sit at row-tile `t`, column-tile
    0; the weight window is the whole matrix at every point. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `r` of the feature tile at point `t` is row `5000 t + r` of the feature array. -/
theorem read_x1 (c : Dev nD) (t : Fin cfg1.N) (j : S5000x64.Idx) (k : Fin 128) :
    (iblk1 V c 0 t : Vec Ideal S5000x128 .f32) (ix2 (j 0) k)
      = (V c main_v46 : Vec Ideal S100000x128 .f32) (ix2 ((((cfg1.win 2).blk t).view.emb j) 0) k) := by
  show (V c main_v46 : Vec Ideal S100000x128 .f32) (((cfg1.win 0).blk t).view.emb (ix2 (j 0) k)) = _
  refine congrArg (V c main_v46 : Vec Ideal S100000x128 .f32) ?_
  obtain ⟨e0, e1, e2, e3, e4, e5⟩ := idx_facts1 t
  funext a; apply Fin.ext
  match a with
  | ⟨0, _⟩ => show win1_0.index t (0 : Fin 2) * 5000 + 1 * (j 0).val = win1_2.index t (0 : Fin 2) * 5000 + 1 * (j 0).val; omega
  | ⟨1, _⟩ => show win1_0.index t (1 : Fin 2) * 128 + 1 * k.val = k.val; omega

/-- The weight tile at every point is the weight matrix; column `c` of the output tile is column `c` of the array. -/
theorem read_w1 (c : Dev nD) (t : Fin cfg1.N) (j : S5000x64.Idx) (k : Fin 128) :
    (iblk1 V c 1 t : Vec Ideal S128x64 .bf16) (ix2 k (j 1))
      = (V c main_v28 : Vec Ideal S128x64 .bf16) (ix2 k ((((cfg1.win 2).blk t).view.emb j) 1)) := by
  show (V c main_v28 : Vec Ideal S128x64 .bf16) (((cfg1.win 1).blk t).view.emb (ix2 k (j 1))) = _
  refine congrArg (V c main_v28 : Vec Ideal S128x64 .bf16) ?_
  obtain ⟨e0, e1, e2, e3, e4, e5⟩ := idx_facts1 t
  funext a; apply Fin.ext
  match a with
  | ⟨0, _⟩ => show win1_1.index t (0 : Fin 2) * 128 + 1 * k.val = k.val; omega
  | ⟨1, _⟩ => show win1_1.index t (1 : Fin 2) * 64 + 1 * (j 1).val = win1_2.index t (1 : Fin 2) * 64 + 1 * (j 1).val; omega

/-- WHAT POINT `t` WRITES BACK is tile `t` of the whole product of the arrays as the region finds them. -/
theorem flushed_eq1 (c : Dev nD) (t : Fin cfg1.N) :
    (dat1 V c).flushed 2 t = ((cfg1.win 2).blk t).view.read (Elt Ideal) (prod64 (V c main_v46) (V c main_v28)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x64) hz]
  funext j
  show k1_pay1 (iblk1 V c 0 t) (iblk1 V c 1 t) j = prod64 (V c main_v46) (V c main_v28) (((cfg1.win 2).blk t).view.emb j)
  refine (Cert.Dense.tile64 (iblk1 V c 0 t) (iblk1 V c 1 t) j).trans ?_
  unfold prod64
  refine Finset.sum_congr rfl fun k _ => ?_
  rw [read_x1 V c t j k, read_w1 V c t j k]

/-- An index of the output array is in point `t`'s tile iff each coordinate is in the tile's range on its axis. -/
theorem mem_blk1 (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v47).slice (win1_2.rect t)).set ↔ _
  rw [View.set_slice_whole, Rect.mem_set_unit]
  exact Iff.rfl

/-- Every row of the output lies in the tile of the point `row / 5000`. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_2 _, ?_⟩
  rw [mem_blk1]
  obtain ⟨e0, e1, e2, e3, e4, e5⟩ := idx_facts1 ⟨(i 0).val / 5000, by rw [hN]; omega⟩
  intro a
  match a with
  | ⟨0, _⟩ => show win1_2.index _ (0 : Fin 2) * 5000 ≤ (i 0).val ∧ (i 0).val < win1_2.index _ (0 : Fin 2) * 5000 + 5000; rw [e4]; show (i 0).val / 5000 * 5000 ≤ _ ∧ _ < (i 0).val / 5000 * 5000 + 5000; omega
  | ⟨1, _⟩ => show win1_2.index _ (1 : Fin 2) * 64 ≤ (i 1).val ∧ (i 1).val < win1_2.index _ (1 : Fin 2) * 64 + 64; rw [e5]; omega

/-- THE OUTPUT ARRAY after the region: the whole product of the feature array and the weight matrix as the region
    finds them. -/
theorem final1 (c : Dev nD) : (dat1 V c).arrAt 2 cfg1.N = prod64 (V c main_v46) (V c main_v28) :=
  (dat1 V c).arrAt_eq_of_cover 2 (prod64 (V c main_v46) (V c main_v28)) (fun t _ => flushed_eq1 V c t) (cover1)

end Region1

end Cert.KernelIdeal.Tiles

end
-- ==== Proof.KernelValue.lean ====
/-
  What the idealized kernel program leaves in its result array.

  The program is six segments: host operations, the first dense region, host operations, the relu, the second
  dense region, host operations.  Reading the buffers' contents boundary by boundary:
    · after the first stretch the endpoint arrays hold the edge sources and destinations (self-loops appended), the
      per-edge weight array holds deg(s)^(-1/2) · deg(d)^(-1/2), and the two rounded weight matrices are in place;
    · the first region leaves x · W₁ in its output array and touches nothing else that is read later;
    · the second stretch gathers, scales, adds along the edges and adds the bias; the relu follows;
    · the second region leaves relu(…) · W₂ in its output array;
    · the last stretch aggregates once more into the result array.
  Composed, the result array holds the two-layer network of the graph module applied to the six argument
  arrays as launched.
-/
import proofs.«156034_j18408229830831_1_alg».proof.Proof.Gen.KernelIdeal.Frame
import proofs.«156034_j18408229830831_1_alg».proof.Proof.Tiles
import proofs.«156034_j18408229830831_1_alg».proof.Proof.Graph
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Fold

open Cert.KernelIdeal Cert.KernelIdeal.Gen Cert.KernelIdeal.Graph Cert.KernelIdeal.Tiles

variable (m : (ℓ : Loc nD τ sig) → Buf (Elt Ideal) ℓ) (ρ : Dev nD → PrngReg)

/-! ## After the first host stretch -/

theorem src_at1 (c : Dev nD) : W1 m ρ c (Proc.devRef .tc main_v3) = src (m ((c : Thread nD τ).loc main_arg1)) := by
  show StableHlo.after hostOps0 (W0 m ρ c) (Proc.devRef .tc main_v3) = _
  after_results <;> rfl

theorem dst_at1 (c : Dev nD) : W1 m ρ c (Proc.devRef .tc main_v6) = dst (m ((c : Thread nD τ).loc main_arg1)) := by
  show StableHlo.after hostOps0 (W0 m ρ c) (Proc.devRef .tc main_v6) = _
  after_results <;> rfl

set_option maxHeartbeats 1000000 in
/-- The per-edge weights are built by the 28 operations that follow the seven that build the endpoints; from any
    contents after those seven they are the weights of the endpoints found there. -/
theorem norm_at1 (c : Dev nD) : W1 m ρ c (Proc.devRef .tc main_v26) = norm (src (m ((c : Thread nD τ).loc main_arg1))) (dst (m ((c : Thread nD τ).loc main_arg1))) := by
  show StableHlo.after hostOps0 (W0 m ρ c) (Proc.devRef .tc main_v26) = _
  rw [← List.take_append_drop 7 (hostOps0 : List (HloOp τ sig (Elt Ideal))), StableHlo.after_append]
  have hs : StableHlo.after (List.take 7 (hostOps0 : List (HloOp τ sig (Elt Ideal)))) (W0 m ρ c) (Proc.devRef .tc main_v3) = src (m ((c : Thread nD τ).loc main_arg1)) := by
    simp only [hostOps0, List.take_succ_cons, List.take_zero]
    after_results <;> rfl
  have hd : StableHlo.after (List.take 7 (hostOps0 : List (HloOp τ sig (Elt Ideal)))) (W0 m ρ c) (Proc.devRef .tc main_v6) = dst (m ((c : Thread nD τ).loc main_arg1)) := by
    simp only [hostOps0, List.take_succ_cons, List.take_zero]
    after_results <;> rfl
  rw [← hs, ← hd]
  generalize StableHlo.after (List.take 7 (hostOps0 : List (HloOp τ sig (Elt Ideal)))) (W0 m ρ c) = X
  simp only [hostOps0, List.drop_succ_cons, List.drop_zero]
  after_results_simp
  simp only [Graph.norm, invSqrtDeg, wrap]

theorem w1_at1 (c : Dev nD) : W1 m ρ c (Proc.devRef .tc main_v27) = round128 (m ((c : Thread nD τ).loc main_arg2)) := by
  show StableHlo.after hostOps0 (W0 m ρ c) (Proc.devRef .tc main_v27) = _
  after_results <;> rfl

theorem w2_at1 (c : Dev nD) : W1 m ρ c (Proc.devRef .tc main_v28) = round64 (m ((c : Thread nD τ).loc main_arg4)) := by
  show StableHlo.after hostOps0 (W0 m ρ c) (Proc.devRef .tc main_v28) = _
  after_results <;> rfl

theorem x_at1 (c : Dev nD) : W1 m ρ c (Proc.devRef .tc main_arg0) = (m ((c : Thread nD τ).loc main_arg0)) := by
  show StableHlo.after hostOps0 (W0 m ρ c) (Proc.devRef .tc main_arg0) = _
  after_results <;> rfl

theorem b1_at1 (c : Dev nD) : W1 m ρ c (Proc.devRef .tc main_arg3) = (m ((c : Thread nD τ).loc main_arg3)) := by
  show StableHlo.after hostOps0 (W0 m ρ c) (Proc.devRef .tc main_arg3) = _
  after_results <;> rfl

theorem b2_at1 (c : Dev nD) : W1 m ρ c (Proc.devRef .tc main_arg5) = (m ((c : Thread nD τ).loc main_arg5)) := by
  show StableHlo.after hostOps0 (W0 m ρ c) (Proc.devRef .tc main_arg5) = _
  after_results <;> rfl

/-! ## Across the first region: its output is x · W₁; nothing else read later is one of its arrays -/

theorem h_at2 (c : Dev nD) : W2 m ρ c (Proc.devRef .tc main_v29) = prod128 (m ((c : Thread nD τ).loc main_arg0)) (round128 (m ((c : Thread nD τ).loc main_arg2))) := by
  refine (W2_arr m ρ c 2).trans ((final0 (V1 m ρ) c).trans ?_)
  show prod128 (W1 m ρ c (Proc.devRef .tc main_arg0)) (W1 m ρ c (Proc.devRef .tc main_v27)) = _
  rw [x_at1, w1_at1]

theorem keep2_main_v3 (c : Dev nD) : W2 m ρ c (Proc.devRef .tc main_v3) = W1 m ρ c (Proc.devRef .tc main_v3) := W2_of_ne m ρ c main_v3 (by decide)
theorem keep2_main_v6 (c : Dev nD) : W2 m ρ c (Proc.devRef .tc main_v6) = W1 m ρ c (Proc.devRef .tc main_v6) := W2_of_ne m ρ c main_v6 (by decide)
theorem keep2_main_v26 (c : Dev nD) : W2 m ρ c (Proc.devRef .tc main_v26) = W1 m ρ c (Proc.devRef .tc main_v26) := W2_of_ne m ρ c main_v26 (by decide)
theorem keep2_main_v28 (c : Dev nD) : W2 m ρ c (Proc.devRef .tc main_v28) = W1 m ρ c (Proc.devRef .tc main_v28) := W2_of_ne m ρ c main_v28 (by decide)
theorem keep2_main_arg3 (c : Dev nD) : W2 m ρ c (Proc.devRef .tc main_arg3) = W1 m ρ c (Proc.devRef .tc main_arg3) := W2_of_ne m ρ c main_arg3 (by decide)
theorem keep2_main_arg5 (c : Dev nD) : W2 m ρ c (Proc.devRef .tc main_arg5) = W1 m ρ c (Proc.devRef .tc main_arg5) := W2_of_ne m ρ c main_arg5 (by decide)

/-! ## The second stretch and the relu -/

set_option maxHeartbeats 1000000 in
theorem agg_at3 (c : Dev nD) : W3 m ρ c (Proc.devRef .tc main_v45)
    = aggregate128 (W2 m ρ c (Proc.devRef .tc main_v29)) (W2 m ρ c (Proc.devRef .tc main_v3)) (W2 m ρ c (Proc.devRef .tc main_v6)) (W2 m ρ c (Proc.devRef .tc main_v26)) (W2 m ρ c (Proc.devRef .tc main_arg3)) := by
  show StableHlo.after hostOps1 (W2 m ρ c) (Proc.devRef .tc main_v45) = _
  after_results_simp
  simp only [aggregate128, wrap]

/-- The relu's three operations, from any contents: the maximum with the zero array. -/
theorem relu_at4 (c : Dev nD) : W4 m ρ c (Proc.devRef .tc main_v46) = relu (W3 m ρ c (Proc.devRef .tc main_v45)) := by
  show StableHlo.after hostOps1_1 (W3 m ρ c) (Proc.devRef .tc main_v46) = _
  generalize W3 m ρ c = Y
  after_results <;> rfl

theorem h1_at4 (c : Dev nD) : W4 m ρ c (Proc.devRef .tc main_v46)
    = relu (aggregate128 (W2 m ρ c (Proc.devRef .tc main_v29)) (W2 m ρ c (Proc.devRef .tc main_v3)) (W2 m ρ c (Proc.devRef .tc main_v6)) (W2 m ρ c (Proc.devRef .tc main_v26)) (W2 m ρ c (Proc.devRef .tc main_arg3))) := by
  rw [relu_at4, agg_at3]

theorem keep4_main_v3 (c : Dev nD) : W4 m ρ c (Proc.devRef .tc main_v3) = W2 m ρ c (Proc.devRef .tc main_v3) := by
  show StableHlo.after hostOps1_1 (StableHlo.after hostOps1 (W2 m ρ c)) (Proc.devRef .tc main_v3) = _
  after_results <;> rfl
theorem keep4_main_v6 (c : Dev nD) : W4 m ρ c (Proc.devRef .tc main_v6) = W2 m ρ c (Proc.devRef .tc main_v6) := by
  show StableHlo.after hostOps1_1 (StableHlo.after hostOps1 (W2 m ρ c)) (Proc.devRef .tc main_v6) = _
  after_results <;> rfl
theorem keep4_main_v26 (c : Dev nD) : W4 m ρ c (Proc.devRef .tc main_v26) = W2 m ρ c (Proc.devRef .tc main_v26) := by
  show StableHlo.after hostOps1_1 (StableHlo.after hostOps1 (W2 m ρ c)) (Proc.devRef .tc main_v26) = _
  after_results <;> rfl
theorem keep4_main_v28 (c : Dev nD) : W4 m ρ c (Proc.devRef .tc main_v28) = W2 m ρ c (Proc.devRef .tc main_v28) := by
  show StableHlo.after hostOps1_1 (StableHlo.after hostOps1 (W2 m ρ c)) (Proc.devRef .tc main_v28) = _
  after_results <;> rfl
theorem keep4_main_arg5 (c : Dev nD) : W4 m ρ c (Proc.devRef .tc main_arg5) = W2 m ρ c (Proc.devRef .tc main_arg5) := by
  show StableHlo.after hostOps1_1 (StableHlo.after hostOps1 (W2 m ρ c)) (Proc.devRef .tc main_arg5) = _
  after_results <;> rfl

/-! ## Across the second region: its output is relu(…) · W₂ -/

theorem h2_at5 (c : Dev nD) : W5 m ρ c (Proc.devRef .tc main_v47) = prod64 (W4 m ρ c (Proc.devRef .tc main_v46)) (W4 m ρ c (Proc.devRef .tc main_v28)) :=
  (W5_arr m ρ c 2).trans (final1 (V4 m ρ) c)

theorem keep5_main_v3 (c : Dev nD) : W5 m ρ c (Proc.devRef .tc main_v3) = W4 m ρ c (Proc.devRef .tc main_v3) := W5_of_ne m ρ c main_v3 (by decide)
theorem keep5_main_v6 (c : Dev nD) : W5 m ρ c (Proc.devRef .tc main_v6) = W4 m ρ c (Proc.devRef .tc main_v6) := W5_of_ne m ρ c main_v6 (by decide)
theorem keep5_main_v26 (c : Dev nD) : W5 m ρ c (Proc.devRef .tc main_v26) = W4 m ρ c (Proc.devRef .tc main_v26) := W5_of_ne m ρ c main_v26 (by decide)
theorem keep5_main_arg5 (c : Dev nD) : W5 m ρ c (Proc.devRef .tc main_arg5) = W4 m ρ c (Proc.devRef .tc main_arg5) := W5_of_ne m ρ c main_arg5 (by decide)

/-! ## The last stretch -/

set_option maxHeartbeats 1000000 in
theorem out_at6 (c : Dev nD) : W6 m ρ c (Proc.devRef .tc main_v63)
    = aggregate64 (W5 m ρ c (Proc.devRef .tc main_v47)) (W5 m ρ c (Proc.devRef .tc main_v3)) (W5 m ρ c (Proc.devRef .tc main_v6)) (W5 m ρ c (Proc.devRef .tc main_v26)) (W5 m ρ c (Proc.devRef .tc main_arg5)) := by
  show StableHlo.after hostOps2 (W5 m ρ c) (Proc.devRef .tc main_v63) = _
  after_results_simp
  simp only [aggregate64, wrap]

/-! ## Composed -/

/-- The result array after the run: the two-layer network of the argument arrays as launched. -/
theorem result (c : Dev nD) : W6 m ρ c (Proc.devRef .tc main_v63)
    = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [out_at6, h2_at5, h1_at4, h_at2,
    keep5_main_v3, keep5_main_v6, keep5_main_v26, keep5_main_arg5,
    keep4_main_v3, keep4_main_v6, keep4_main_v26, keep4_main_v28, keep4_main_arg5,
    keep2_main_v3, keep2_main_v6, keep2_main_v26, keep2_main_v28, keep2_main_arg3, keep2_main_arg5,
    src_at1, dst_at1, norm_at1, w2_at1, b1_at1, b2_at1]
  rfl

end Cert.KernelIdeal.Fold

end
-- ==== Proof.RefValue.lean ====
/-
  The reference computes the same network.

  The reference's run ends with its result array at one long composed term of the argument arrays.  Read in the
  graph module's vocabulary it is layer₂(relu(layer₁(x · W₁)) · W₂) with each product one whole contraction of
  the unrounded operands and with the edge weights recomputed for the second layer by the same operations from
  the same endpoints, hence the same weights.  A whole contraction's entry is the sum over the 128 input
  channels of a feature row against a weight column, and rounding the weights is the identity on the extended
  reals, so each contraction is the graph module's product with the rounded weights.
-/
import proofs.«156034_j18408229830831_1_alg».proof.Proof.Gen.ReferenceIdeal.Run
import proofs.«156034_j18408229830831_1_alg».proof.Proof.Graph
import proofs.«156034_j18408229830831_1_alg».proof.Proof.Dense

set_option maxRecDepth 16384

noncomputable section

open Idealize.ShloMosaic Idealize.ShloMosaic.TcCoe Idealize.SL.Sem Idealize.ShloMosaic.ValueIdx

namespace Cert.ReferenceIdeal.Same

open Cert.ReferenceIdeal Cert.KernelIdeal.Graph

/-- The first layer's contraction is the product with the rounded weights. -/
theorem dot128 (x : Feat128 Ideal) (w : (⟨Cert.KernelIdeal.S128x128, .f32⟩ : BufTy).Contents (Elt Ideal)) :
    Host.dotGeneral (F := Ideal) (φ₁ := .f32) (φ₂ := .f32) dot_S100000x128_S128x128_S100000x128_1_0_0_1_n_n none x w = prod128 x (round128 w) := by
  funext i
  rw [Cert.Dense.whole128]
  rfl

/-- The second layer's contraction is the product with the rounded weights. -/
theorem dot64 (x : Feat128 Ideal) (w : (⟨Cert.KernelIdeal.S128x64, .f32⟩ : BufTy).Contents (Elt Ideal)) :
    Host.dotGeneral (F := Ideal) (φ₁ := .f32) (φ₂ := .f32) dot_S100000x128_S128x64_S100000x64_1_0_0_1_n_n none x w = prod64 x (round64 w) := by
  funext i
  rw [Cert.Dense.whole64]
  rfl

variable (m : (ℓ : Loc nD τ sig) → Buf (Elt Ideal) ℓ)

/-- The reference's result term is the two-layer network of the argument arrays. -/
theorem result (c : Dev nD) : Cert.ReferenceIdeal.Value.res_main_v81 (F := Ideal) m c
    = gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Cert.ReferenceIdeal.Value.res_main_v81
  show aggregate64
      (Host.dotGeneral (F := Ideal) (φ₁ := .f32) (φ₂ := .f32) dot_S100000x128_S128x64_S100000x64_1_0_0_1_n_n none
        (relu (aggregate128
          (Host.dotGeneral (F := Ideal) (φ₁ := .f32) (φ₂ := .f32) dot_S100000x128_S128x128_S100000x128_1_0_0_1_n_n none (m ((c.tc : Thread nD τ).loc main_arg0)) (m ((c.tc : Thread nD τ).loc main_arg2)))
          (src (m ((c.tc : Thread nD τ).loc main_arg1))) (dst (m ((c.tc : Thread nD τ).loc main_arg1))) (norm (src (m ((c.tc : Thread nD τ).loc main_arg1))) (dst (m ((c.tc : Thread nD τ).loc main_arg1)))) (m ((c.tc : Thread nD τ).loc main_arg3))))
        (m ((c.tc : Thread nD τ).loc main_arg4)))
      (src (m ((c.tc : Thread nD τ).loc main_arg1))) (dst (m ((c.tc : Thread nD τ).loc main_arg1))) (norm (src (m ((c.tc : Thread nD τ).loc main_arg1))) (dst (m ((c.tc : Thread nD τ).loc main_arg1)))) (m ((c.tc : Thread nD τ).loc main_arg5)) = _
  rw [dot128, dot64]
  rfl

end Cert.ReferenceIdeal.Same

end
-- ==== Proof.lean ====
/-
  The certificate of a two-layer graph convolution whose dense products run as tiled kernels.

  Both programs compute   layer₂( relu( layer₁( x · W₁ ) ) · W₂ )   over a graph of 100000 nodes and 1700000
  edges (the self-loops included), a layer being: gather each edge's source row, scale it by the edge's weight
  deg(s)^(-1/2) · deg(d)^(-1/2), add it into the destination row, add the bias.  They differ in two places.
    · The kernel program forms x · W in 20 tiles of 5000 rows, each tile a product of bf16-rounded operands
      accumulated from zero; the reference forms one whole contraction of the unrounded operands.  Over the
      extended reals rounding is the identity and both are the plain sums Σ_k x[r, k] · w[k, c], and the tiles
      partition the rows, so the arrays are equal.
    · The kernel program computes the edge weights once; the reference computes them again for the second layer,
      by the same operations from the same endpoints.
  Every other operation is the same operation applied to equal values, so the two results are one function of
  the arguments (the graph module's network).  Only the definition of a contraction is used, no law of
  arithmetic that could fail at an infinity; the precondition is never opened.
  The kernel programs' frames are the generated ones; the reference's frame is its generated run with the
  result dropped; the idealization rewrote no operation, so there is nothing to preserve.
-/
import proofs.«156034_j18408229830831_1_alg».proof.Defs
import proofs.«156034_j18408229830831_1_alg».proof.Proof.Gen.Kernel
import proofs.«156034_j18408229830831_1_alg».proof.Proof.Gen.Kernel.Skeleton
import proofs.«156034_j18408229830831_1_alg».proof.Proof.Gen.Kernel.Launch
import proofs.«156034_j18408229830831_1_alg».proof.Proof.Gen.Kernel.Points
import proofs.«156034_j18408229830831_1_alg».proof.Proof.Gen.Kernel.Frame
import proofs.«156034_j18408229830831_1_alg».proof.Proof.Gen.KernelIdeal
import proofs.«156034_j18408229830831_1_alg».proof.Proof.Gen.KernelIdeal.Skeleton
import proofs.«156034_j18408229830831_1_alg».proof.Proof.Gen.KernelIdeal.Launch
import proofs.«156034_j18408229830831_1_alg».proof.Proof.Gen.KernelIdeal.Points
import proofs.«156034_j18408229830831_1_alg».proof.Proof.Gen.KernelIdeal.Frame
import proofs.«156034_j18408229830831_1_alg».proof.Proof.Gen.ReferenceIdeal
import proofs.«156034_j18408229830831_1_alg».proof.Proof.Gen.Pre_finite_inputs
import proofs.«156034_j18408229830831_1_alg».proof.Proof.Gen.ReferenceIdeal.Run
import proofs.«156034_j18408229830831_1_alg».proof.Proof.KernelRun
import proofs.«156034_j18408229830831_1_alg».proof.Proof.KernelValue
import proofs.«156034_j18408229830831_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The kernel program's result array ends at the network of its arguments (the fold of its six segments read
    back), the reference's at its run's term, which is the same network; the arguments agree. -/
theorem algebraic : Cert.algebraic_KernelIdeal_ReferenceIdeal := by
  intro m ρ m' ρ' _ hagree
  refine ⟨_, (θ_run Cert.KernelIdeal.defs _ _).mono
      (fun _ h c => ⟨(h c).1.trans (Cert.KernelIdeal.Fold.result m ρ c), (h c).2⟩)
      (Cert.KernelIdeal.Named.run_named (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Same.result, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
